-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S800000 32) (main_arg1 : IVec S800000 32) (main_arg2 : FVec F S800000 .f32) (main_arg3 : FVec F S50000x128 .f32) (main_arg4 : FVec F S128x128 .f32) (main_arg5 : FVec F S128 .f32) (main_arg6 : FVec F S128x128 .f32) (main_arg7 : FVec F S128 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 46
  | .vmem => 12
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S128x128, .f32⟩
  | .hbm, ⟨25, _⟩ => ⟨S1x128, .f32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x1, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S128x128, .f32⟩
  | .hbm, ⟨44, _⟩ => ⟨S1x128, .f32⟩
  | .hbm, ⟨45, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x1, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Payload.lean ====
/-
  What one grid point of the dense layer stores, entry by entry.

  The body loads a block x of 5000 rows of the layer's input, the transposed weight matrix w (128 by 128) and the bias as one
  row b (1 by 128), and stores max (x · w + b, 0). Over the extended reals the two changes of float format are the identity
  and the matrix product into the zero accumulator is the plain sum over the contracted coordinate, so entry (p, q) of the
  stored block is max (∑ κ, x (p, κ) * w (κ, q) + b (0, q), 0).
-/
import proofs.«110639_j81338090651948_1_alg».proof.Proof.Gen.KernelIdeal.Skeleton
import proofs.«110639_j81338090651948_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The kernel's matrix product contracts the block's columns with the weight's rows and has no batch axes. -/
theorem dot_plain : PlainDot.IsPlain dot_S5000x128_S128x128_S5000x128_1_0_0_1_n_n := ⟨rfl, rfl, rfl, rfl, rfl, rfl⟩

/-- One entry of a dense layer's output from a row block x, a weight w already transposed and a bias row b. -/
def denseAt {M : Nat} (x : (⟨2, ![M, 128]⟩ : Shape).Idx → EReal) (w : (⟨2, ![128, 128]⟩ : Shape).Idx → EReal)
    (b : (⟨2, ![1, 128]⟩ : Shape).Idx → EReal) (p : Fin M) (q : Fin 128) : EReal :=
  max ((∑ κ : Fin 128, x (ix2 p κ) * w (ix2 κ q)) + b (ix2 (0 : Fin 1) q)) (Ideal.ofBits .f32 0x00000000#32)

/-- Entry (p, q) of what a grid point of the first layer stores. -/
theorem pay0_apply (x0 : Vec Ideal S5000x128 .f32) (x1 : Vec Ideal S128x128 .f32) (x2 : Vec Ideal S1x128 .f32)
    (p : Fin 5000) (q : Fin 128) :
    k0_pay1 (F := Ideal) x0 x1 x2 (ix2 p q) = denseAt x0 x1 x2 p q := by
  unfold k0_pay1 denseAt
  rw [shapeCast_self, shapeCast_self, shapeCast_self]
  refine (maximumf_apply _ _ _).trans ?_
  refine congrArg₂ max ?_ rfl
  refine (addf_apply _ _ _).trans ?_
  refine congrArg₂ (· + ·) ?_ ?_
  · exact PlainDot.matmul_zero_plain dot_S5000x128_S128x128_S5000x128_1_0_0_1_n_n dot_plain none _ _ p q
  · exact broadcastTo_1b_ab_apply x2 broadcasts_S1x128_S5000x128 p q

/-- Entry (p, q) of what a grid point of the second layer stores: the same body. -/
theorem pay1_apply (x0 : Vec Ideal S5000x128 .f32) (x1 : Vec Ideal S128x128 .f32) (x2 : Vec Ideal S1x128 .f32)
    (p : Fin 5000) (q : Fin 128) :
    k1_pay1 (F := Ideal) x0 x1 x2 (ix2 p q) = denseAt x0 x1 x2 p q := by
  unfold k1_pay1 denseAt
  rw [shapeCast_self, shapeCast_self, shapeCast_self]
  refine (maximumf_apply _ _ _).trans ?_
  refine congrArg₂ max ?_ rfl
  refine (addf_apply _ _ _).trans ?_
  refine congrArg₂ (· + ·) ?_ ?_
  · exact PlainDot.matmul_zero_plain dot_S5000x128_S128x128_S5000x128_1_0_0_1_n_n dot_plain none _ _ p q
  · exact broadcastTo_1b_ab_apply x2 broadcasts_S1x128_S5000x128 p q

end Cert.KernelIdeal.Hand

end
-- ==== Proof.Blocks.lean ====
/-
  Each dense layer's output array as one function of its three input arrays.

  A layer's launch walks ten grid points; point t reads rows 5000 t … 5000 t + 4999 of the layer's input, the whole transposed
  weight matrix and the whole bias row, and writes back rows 5000 t … 5000 t + 4999 of the output. The ten row blocks tile the
  50000 rows, and by the entry formula for one block every entry (r, q) of the output is
  max (∑ κ, x (r, κ) * w (κ, q) + b (0, q), 0) of the arrays the launch found.
-/
import proofs.«110639_j81338090651948_1_alg».proof.Proof.Gen.KernelIdeal.Frame
import proofs.«110639_j81338090651948_1_alg».proof.Proof.Payload
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- A dense layer on whole arrays: entry (r, q) is max (∑ κ, x (r, κ) * w (κ, q) + b (0, q), 0). -/
def denseArr (x : Vec Ideal S50000x128 .f32) (w : Vec Ideal S128x128 .f32) (b : Vec Ideal S1x128 .f32) :
    Vec Ideal S50000x128 .f32 :=
  fun i => denseAt x w b ⟨(i 0).val, idx2_lt0 i⟩ ⟨(i 1).val, idx2_lt1 i⟩

variable (V : (c : Dev nD) → (b : Ref sig .tc) → Buf (Elt Ideal) ((c : Thread nD τ).loc b))

/-! ## The first layer's launch -/

/-- The block indices of the first launch's four windows at point t: the input and the output move down one row block per
    point, the weight and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_N0 (t : Fin cfg0.N) : t.val < 10 := by
  have h : cfg0.N = 10 := N_0
  have := t.isLt
  omega

/-- Entry (p, κ) of the input block at point t is entry (5000 t + p, κ) of the input array. -/
theorem xblk0_apply (c : Dev nD) (t : Fin cfg0.N) (p : Fin 5000) (κ : Fin 128) :
    (iblk0 V c 0 t : Vec Ideal S5000x128 .f32) (ix2 p κ)
      = (V c main_v12 : Vec Ideal S50000x128 .f32) (ix2 ⟨5000 * t.val + p.val, by have := lt_N0 t; have := p.isLt; omega⟩ κ) := by
  obtain ⟨e0, e1, -⟩ := idx_facts0 t
  unfold iblk0
  rw [View.read_apply]
  show V c main_v12 _ = V c main_v12 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * κ.val = κ.val; rw [e1]; omega

/-- The weight block at every point is the whole transposed weight matrix. -/
theorem wblk0_apply (c : Dev nD) (t : Fin cfg0.N) (κ : Fin 128) (q : Fin 128) :
    (iblk0 V c 1 t : Vec Ideal S128x128 .f32) (ix2 κ q) = (V c main_v13 : Vec Ideal S128x128 .f32) (ix2 κ q) := by
  obtain ⟨-, -, e2, e3, -⟩ := idx_facts0 t
  unfold iblk0
  rw [View.read_apply]
  show V c main_v13 _ = V c main_v13 _
  congr 1
  funext a
  apply Fin.ext
  match a with
  | ⟨0, _⟩ => show win0_1.index t (0 : Fin 2) * 128 + 1 * κ.val = κ.val; rw [e2]; omega
  | ⟨1, _⟩ => show win0_1.index t (1 : Fin 2) * 128 + 1 * q.val = q.val; rw [e3]; omega

/-- The bias block at every point is the whole bias row. -/
theorem bblk0_apply (c : Dev nD) (t : Fin cfg0.N) (u : Fin 1) (q : Fin 128) :
    (iblk0 V c 2 t : Vec Ideal S1x128 .f32) (ix2 u q) = (V c main_v14 : Vec Ideal S1x128 .f32) (ix2 u q) := by
  obtain ⟨-, -, -, -, e4, e5, -⟩ := idx_facts0 t
  unfold iblk0
  rw [View.read_apply]
  show V c main_v14 _ = V c main_v14 _
  congr 1
  funext a
  apply Fin.ext
  match a with
  | ⟨0, _⟩ => show win0_2.index t (0 : Fin 2) * 1 + 1 * u.val = u.val; rw [e4]; omega
  | ⟨1, _⟩ => show win0_2.index t (1 : Fin 2) * 128 + 1 * q.val = q.val; rw [e5]; omega

/-- Entry (p, q) of the output's block at point t, read off a whole array, is the array's entry (5000 t + p, q). -/
theorem oblk0_apply (c : Dev nD) (t : Fin cfg0.N) (G : Vec Ideal S50000x128 .f32) (p : Fin 5000) (q : Fin 128) :
    (((cfg0.win 3).blk t).view.read (Elt Ideal) G : Vec Ideal S5000x128 .f32) (ix2 p q)
      = G (ix2 ⟨5000 * t.val + p.val, by have := lt_N0 t; have := p.isLt; omega⟩ q) := by
  obtain ⟨-, -, -, -, -, -, e6, e7⟩ := idx_facts0 t
  rw [View.read_apply]
  show G _ = G _
  congr 1
  funext a
  apply Fin.ext
  match a with
  | ⟨0, _⟩ => show win0_3.index t (0 : Fin 2) * 5000 + 1 * p.val = 5000 * t.val + p.val; rw [e6]; omega
  | ⟨1, _⟩ => show win0_3.index t (1 : Fin 2) * 128 + 1 * q.val = q.val; rw [e7]; omega

/-- What point t writes back is block t of the dense layer of the arrays the launch found. -/
theorem flushed0_eq (c : Dev nD) (t : Fin cfg0.N) :
    (dat0 V c).flushed 3 t
      = ((cfg0.win 3).blk t).view.read (Elt Ideal) (denseArr (V c main_v12) (V c main_v13) (V c main_v14)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  show (k0_pay1 (F := Ideal) (iblk0 V c 0 t) (iblk0 V c 1 t) (iblk0 V c 2 t) : Vec Ideal S5000x128 .f32)
    = (((cfg0.win 3).blk t).view.read (Elt Ideal) (denseArr (V c main_v12) (V c main_v13) (V c main_v14)) : Vec Ideal S5000x128 .f32)
  funext j
  obtain ⟨p, q, rfl⟩ : ∃ (p : Fin 5000) (q : Fin 128), j = ix2 p q := ⟨j 0, j 1, eq_ix2 j⟩
  refine (pay0_apply (iblk0 V c 0 t) (iblk0 V c 1 t) (iblk0 V c 2 t) p q).trans ?_
  refine Eq.trans ?_ (oblk0_apply c t (denseArr (V c main_v12) (V c main_v13) (V c main_v14)) p q).symm
  unfold denseArr denseAt
  refine congrArg₂ max (congrArg₂ (· + ·) (Finset.sum_congr rfl fun κ _ => congrArg₂ (· * ·) ?_ ?_) ?_) rfl
  · exact xblk0_apply V c t p κ
  · exact wblk0_apply V c t κ q
  · exact bblk0_apply V c t 0 q

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Every row of the output is in some point's block: row r in point r / 5000's. -/
theorem cover0 (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 10 := N_0
  refine ⟨⟨(i 0).val / 5000, by rw [hN]; omega⟩, flush0_3 _, ?_⟩
  rw [mem_blk0]
  obtain ⟨-, -, -, -, -, -, e6, e7⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- After the first launch its output array is the dense layer of the arrays the launch found. -/
theorem arr0 (c : Dev nD) :
    (dat0 V c).arrAt 3 cfg0.N = denseArr (V c main_v12) (V c main_v13) (V c main_v14) :=
  (dat0 V c).arrAt_eq_of_cover 3 (denseArr (V c main_v12) (V c main_v13) (V c main_v14))
    (fun t _ => flushed0_eq V c t) cover0

/-! ## The second layer's launch -/

/-- The block indices of the second launch's four windows at point t: as in the first launch. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_N1 (t : Fin cfg1.N) : t.val < 10 := by
  have h : cfg1.N = 10 := N_1
  have := t.isLt
  omega

/-- Entry (p, κ) of the second launch's input block at point t is entry (5000 t + p, κ) of its input array. -/
theorem xblk1_apply (c : Dev nD) (t : Fin cfg1.N) (p : Fin 5000) (κ : Fin 128) :
    (iblk1 V c 0 t : Vec Ideal S5000x128 .f32) (ix2 p κ)
      = (V c main_v28 : Vec Ideal S50000x128 .f32) (ix2 ⟨5000 * t.val + p.val, by have := lt_N1 t; have := p.isLt; omega⟩ κ) := by
  obtain ⟨e0, e1, -⟩ := idx_facts1 t
  unfold iblk1
  rw [View.read_apply]
  show V c main_v28 _ = V c main_v28 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * κ.val = κ.val; rw [e1]; omega

/-- The second launch's weight block at every point is its whole transposed weight matrix. -/
theorem wblk1_apply (c : Dev nD) (t : Fin cfg1.N) (κ : Fin 128) (q : Fin 128) :
    (iblk1 V c 1 t : Vec Ideal S128x128 .f32) (ix2 κ q) = (V c main_v29 : Vec Ideal S128x128 .f32) (ix2 κ q) := by
  obtain ⟨-, -, e2, e3, -⟩ := idx_facts1 t
  unfold iblk1
  rw [View.read_apply]
  show V c main_v29 _ = V c main_v29 _
  congr 1
  funext a
  apply Fin.ext
  match a with
  | ⟨0, _⟩ => show win1_1.index t (0 : Fin 2) * 128 + 1 * κ.val = κ.val; rw [e2]; omega
  | ⟨1, _⟩ => show win1_1.index t (1 : Fin 2) * 128 + 1 * q.val = q.val; rw [e3]; omega

/-- The second launch's bias block at every point is its whole bias row. -/
theorem bblk1_apply (c : Dev nD) (t : Fin cfg1.N) (u : Fin 1) (q : Fin 128) :
    (iblk1 V c 2 t : Vec Ideal S1x128 .f32) (ix2 u q) = (V c main_v30 : Vec Ideal S1x128 .f32) (ix2 u q) := by
  obtain ⟨-, -, -, -, e4, e5, -⟩ := idx_facts1 t
  unfold iblk1
  rw [View.read_apply]
  show V c main_v30 _ = V c main_v30 _
  congr 1
  funext a
  apply Fin.ext
  match a with
  | ⟨0, _⟩ => show win1_2.index t (0 : Fin 2) * 1 + 1 * u.val = u.val; rw [e4]; omega
  | ⟨1, _⟩ => show win1_2.index t (1 : Fin 2) * 128 + 1 * q.val = q.val; rw [e5]; omega

/-- Entry (p, q) of the second output's block at point t, read off a whole array, is the array's entry (5000 t + p, q). -/
theorem oblk1_apply (c : Dev nD) (t : Fin cfg1.N) (G : Vec Ideal S50000x128 .f32) (p : Fin 5000) (q : Fin 128) :
    (((cfg1.win 3).blk t).view.read (Elt Ideal) G : Vec Ideal S5000x128 .f32) (ix2 p q)
      = G (ix2 ⟨5000 * t.val + p.val, by have := lt_N1 t; have := p.isLt; omega⟩ q) := by
  obtain ⟨-, -, -, -, -, -, e6, e7⟩ := idx_facts1 t
  rw [View.read_apply]
  show G _ = G _
  congr 1
  funext a
  apply Fin.ext
  match a with
  | ⟨0, _⟩ => show win1_3.index t (0 : Fin 2) * 5000 + 1 * p.val = 5000 * t.val + p.val; rw [e6]; omega
  | ⟨1, _⟩ => show win1_3.index t (1 : Fin 2) * 128 + 1 * q.val = q.val; rw [e7]; omega

/-- What point t of the second launch writes back is block t of the dense layer of the arrays that launch found. -/
theorem flushed1_eq (c : Dev nD) (t : Fin cfg1.N) :
    (dat1 V c).flushed 3 t
      = ((cfg1.win 3).blk t).view.read (Elt Ideal) (denseArr (V c main_v28) (V c main_v29) (V c main_v30)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  show (k1_pay1 (F := Ideal) (iblk1 V c 0 t) (iblk1 V c 1 t) (iblk1 V c 2 t) : Vec Ideal S5000x128 .f32)
    = (((cfg1.win 3).blk t).view.read (Elt Ideal) (denseArr (V c main_v28) (V c main_v29) (V c main_v30)) : Vec Ideal S5000x128 .f32)
  funext j
  obtain ⟨p, q, rfl⟩ : ∃ (p : Fin 5000) (q : Fin 128), j = ix2 p q := ⟨j 0, j 1, eq_ix2 j⟩
  refine (pay1_apply (iblk1 V c 0 t) (iblk1 V c 1 t) (iblk1 V c 2 t) p q).trans ?_
  refine Eq.trans ?_ (oblk1_apply c t (denseArr (V c main_v28) (V c main_v29) (V c main_v30)) p q).symm
  unfold denseArr denseAt
  refine congrArg₂ max (congrArg₂ (· + ·) (Finset.sum_congr rfl fun κ _ => congrArg₂ (· * ·) ?_ ?_) ?_) rfl
  · exact xblk1_apply V c t p κ
  · exact wblk1_apply V c t κ q
  · exact bblk1_apply V c t 0 q

/-- An index of the second output array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v31).slice (win1_3.rect t)).set ↔ _
  rw [View.set_slice_whole, Rect.mem_set_unit]
  exact Iff.rfl

/-- Every row of the second output is in some point's block: row r in point r / 5000's. -/
theorem cover1 (i : S50000x128.Idx) : ∃ t : Fin cfg1.N, (cfg1.win 3).flush t = true ∧ i ∈ ((cfg1.win 3).blk t).view.set := by
  have hi0 : (i 0).val < 50000 := idx2_lt0 i
  have hi1 : (i 1).val < 128 := idx2_lt1 i
  have hN : cfg1.N = 10 := N_1
  refine ⟨⟨(i 0).val / 5000, by rw [hN]; omega⟩, flush1_3 _, ?_⟩
  rw [mem_blk1]
  obtain ⟨-, -, -, -, -, -, e6, e7⟩ := idx_facts1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- After the second launch its output array is the dense layer of the arrays that launch found. -/
theorem arr1 (c : Dev nD) :
    (dat1 V c).arrAt 3 cfg1.N = denseArr (V c main_v28) (V c main_v29) (V c main_v30) :=
  (dat1 V c).arrAt_eq_of_cover 3 (denseArr (V c main_v28) (V c main_v29) (V c main_v30))
    (fun t _ => flushed1_eq V c t) cover1

end Cert.KernelIdeal.Hand

end
-- ==== Proof.HostChain.lean ====
/-
  The result array of the two-layer program as one term of the argument arrays.

  Each layer first aggregates over the edges on the host — row e of the gathered features is row src e of the layer's input
  (a negative index wrapped by the number of nodes), scaled by the edge's weight, and added into row dst e of an all-zero
  array — and then launches the dense layer on that sum with the layer's weight matrix transposed and its bias as one row.
  The second layer's host operations read the first launch's output array; nothing writes an argument.
-/
import proofs.«110639_j81338090651948_1_alg».proof.Proof.Gen.KernelIdeal.Frame
import proofs.«110639_j81338090651948_1_alg».proof.Proof.Blocks
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The aggregation over the edges: out[dst e] += val e * h[src e], from an all-zero array; a negative source index is
    wrapped by the number of nodes first. -/
def spmm (src dst : (⟨S800000, .i32⟩ : BufTy).Contents (Elt Ideal)) (val : (⟨S800000, .f32⟩ : BufTy).Contents (Elt Ideal)) (h : (⟨S50000x128, .f32⟩ : BufTy).Contents (Elt Ideal)) : (⟨S50000x128, .f32⟩ : BufTy).Contents (Elt Ideal) :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (dst)) (mulf (Host.gather gather_S50000x128_S800000x1_S800000x128_1_0_n_n_0_1_1128 (h) (broadcastInDim S800000x1 ![0] bcast_S800000_S800000x1_0 (select (cmpi .slt (src) (broadcastInDim S800000 ![] bcast_S_S800000 (constantI S_ 32 0#32))) (addi (src) (broadcastInDim S800000 ![] bcast_S_S800000 (constantI S_ 32 50000#32))) (src)))) (broadcastInDim S800000x128 ![0, 1] bcast_S800000x1_S800000x128_0_1 (broadcastInDim S800000x1 ![0] bcast_S800000_S800000x1_0 (val))))

/-- The weight matrix as the launch receives it: transposed. -/
def wT (W : (⟨S128x128, .f32⟩ : BufTy).Contents (Elt Ideal)) : (⟨S128x128, .f32⟩ : BufTy).Contents (Elt Ideal) :=
  transpose S128x128 [1, 0] W transposes_S128x128_S128x128_1_0

/-- The bias as the launch receives it: one row. -/
def bRow (b : (⟨S128, .f32⟩ : BufTy).Contents (Elt Ideal)) : (⟨S1x128, .f32⟩ : BufTy).Contents (Elt Ideal) :=
  shapeCast S1x128 b shapeCasts_S128_S1x128

variable (m : (ℓ : Loc nD τ sig) → Buf (Elt Ideal) ℓ) (ρ : Dev nD → PrngReg)

/-! ## What the first launch finds -/

theorem v12_eq (c : Dev nD) : V1 m ρ c main_v12 = spmm (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v12) = _
  after_results
  rfl

theorem v13_eq (c : Dev nD) : V1 m ρ c main_v13 = wT (m ((c : Thread nD τ).loc main_arg4)) := by
  show StableHlo.after hostOps0 (W0 m ρ c) (Proc.devRef .tc main_v13) = _
  after_results
  rfl

theorem v14_eq (c : Dev nD) : V1 m ρ c main_v14 = bRow (m ((c : Thread nD τ).loc main_arg5)) := by
  show StableHlo.after hostOps0 (W0 m ρ c) (Proc.devRef .tc main_v14) = _
  after_results
  rfl

/-! ## What the first launch leaves -/

/-- The first launch's output array: the dense layer of the aggregated input. -/
theorem v15_eq (c : Dev nD) :
    W2 m ρ c (Proc.devRef .tc main_v15)
      = denseArr (spmm (m ((c : Thread nD τ).loc main_arg0)) (m ((c : Thread nD τ).loc main_arg1)) (m ((c : Thread nD τ).loc main_arg2)) (m ((c : Thread nD τ).loc main_arg3))) (wT (m ((c : Thread nD τ).loc main_arg4))) (bRow (m ((c : Thread nD τ).loc main_arg5))) := by
  refine (W2_arr m ρ c 3).trans ?_
  rw [arr0 (V1 m ρ) c, v12_eq, v13_eq, v14_eq]

/-- No host operation before the first launch writes the buffer `b`. -/
def Unwritten0 (b : Ref sig .tc) : Prop :=
  ∀ op ∈ (hostOps0 : List (HloOp τ sig (Elt Ideal))), (Proc.devRef .tc b : DevRef τ sig) ∉ op.writes

/-- A buffer that is no array of the first launch's windows, and that no host operation before that launch writes, holds its
    launch contents when the first launch has returned. -/
theorem W2_kept (c : Dev nD) (b : Ref sig .tc) (hw : ∀ w, Pipeline.arrRef spec0 w ≠ b) (hops : Unwritten0 b) :
    W2 m ρ c (Proc.devRef .tc b) = m ((c : Thread nD τ).loc b) :=
  (W2_of_ne m ρ c b hw).trans
    ((StableHlo.after_of_forall_not_mem (b := Proc.devRef .tc b) hostOps0 (W0 m ρ c) hops).trans rfl)

/-- The arguments the second layer's host operations read — the edges' endpoints and weights, the second weight matrix and
    bias — are written by no host operation of the first layer. -/
theorem unwritten0_args : Unwritten0 main_arg0 ∧ Unwritten0 main_arg1 ∧ Unwritten0 main_arg2 ∧ Unwritten0 main_arg6 ∧ Unwritten0 main_arg7 := by
  refine ⟨?_, ?_, ?_, ?_, ?_⟩ <;>
  · refine List.forall_iff_forall_mem.mp ?_
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)

/-! ## What the second launch finds -/

theorem v28_eq (c : Dev nD) :
    V3 m ρ c main_v28 = spmm (m ((c : Thread nD τ).loc main_arg0)) (m ((c : Thread nD τ).loc main_arg1)) (m ((c : Thread nD τ).loc main_arg2)) (W2 m ρ c (Proc.devRef .tc main_v15)) := by
  show StableHlo.after hostOps1 (W2 m ρ c) (Proc.devRef .tc main_v28) = _
  after_results
  rw [W2_kept m ρ c main_arg0 (by decide) unwritten0_args.1, W2_kept m ρ c main_arg1 (by decide) unwritten0_args.2.1,
    W2_kept m ρ c main_arg2 (by decide) unwritten0_args.2.2.1]
  rfl

theorem v29_eq (c : Dev nD) : V3 m ρ c main_v29 = wT (m ((c : Thread nD τ).loc main_arg6)) := by
  show StableHlo.after hostOps1 (W2 m ρ c) (Proc.devRef .tc main_v29) = _
  after_results
  rw [W2_kept m ρ c main_arg6 (by decide) unwritten0_args.2.2.2.1]
  rfl

theorem v30_eq (c : Dev nD) : V3 m ρ c main_v30 = bRow (m ((c : Thread nD τ).loc main_arg7)) := by
  show StableHlo.after hostOps1 (W2 m ρ c) (Proc.devRef .tc main_v30) = _
  after_results
  rw [W2_kept m ρ c main_arg7 (by decide) unwritten0_args.2.2.2.2]
  rfl

/-! ## The result -/

/-- The program's result as a term of the arguments: two layers, each the dense layer of the aggregated input. -/
def result (c : Dev nD) : (⟨S50000x128, .f32⟩ : BufTy).Contents (Elt Ideal) :=
  denseArr (spmm (m ((c : Thread nD τ).loc main_arg0)) (m ((c : Thread nD τ).loc main_arg1)) (m ((c : Thread nD τ).loc main_arg2))
      (denseArr (spmm (m ((c : Thread nD τ).loc main_arg0)) (m ((c : Thread nD τ).loc main_arg1)) (m ((c : Thread nD τ).loc main_arg2)) (m ((c : Thread nD τ).loc main_arg3))) (wT (m ((c : Thread nD τ).loc main_arg4))) (bRow (m ((c : Thread nD τ).loc main_arg5)))))
    (wT (m ((c : Thread nD τ).loc main_arg6))) (bRow (m ((c : Thread nD τ).loc main_arg7)))

/-- The result buffer after the second launch holds that term. -/
theorem v31_eq (c : Dev nD) : W4 m ρ c (Proc.devRef .tc main_v31) = result m c := by
  refine (W4_arr m ρ c 3).trans ?_
  rw [arr1 (V3 m ρ) c, v28_eq, v29_eq, v30_eq, v15_eq]
  rfl

end Cert.KernelIdeal.Hand

end
-- ==== Proof.Bridge.lean ====
/-
  The two programs compute one function of the arguments.

  The reference applies, twice, the same aggregation over the edges and then x · Wᵀ + b followed by max (·, 0), as host
  operations on whole arrays. The aggregation is the very same host computation in both programs. For the dense step, entry
  (r, q) of the host's product of x with the transposed weight is the sum over κ of x (r, κ) * Wᵀ (κ, q), the bias broadcast
  over the rows reads b q, and the zero array reads zero: exactly the entry the launch's row blocks leave.
-/
import proofs.«110639_j81338090651948_1_alg».proof.Proof.HostChain
import proofs.«110639_j81338090651948_1_alg».proof.Proof.Gen.ReferenceIdeal.Read
import proofs.«110639_j81338090651948_1_alg».proof.Proof.LibPlainDot
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.Hand

open Cert.ReferenceIdeal Cert.ReferenceIdeal.Gen
open Idealize.ShloMosaic Idealize.ShloMosaic.ValueIdx

section
variable {F : FTy → Type} [FloatOps F]

/-- The reference's aggregation over the edges: out[dst e] += val e * h[src e] from an all-zero array, a negative source
    index wrapped by the number of nodes first. -/
def spmm (src dst : (⟨S800000, .i32⟩ : BufTy).Contents (Elt F)) (val : (⟨S800000, .f32⟩ : BufTy).Contents (Elt F)) (h : (⟨S50000x128, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 (dst)) (mulf (Host.gather gather_S50000x128_S800000x1_S800000x128_1_0_n_n_0_1_1128 (h) (broadcastInDim S800000x1 ![0] bcast_S800000_S800000x1_0 (select (cmpi .slt (src) (broadcastInDim S800000 ![] bcast_S_S800000 (constantI S_ 32 0#32))) (addi (src) (broadcastInDim S800000 ![] bcast_S_S800000 (constantI S_ 32 50000#32))) (src)))) (broadcastInDim S800000x128 ![0, 1] bcast_S800000x1_S800000x128_0_1 (broadcastInDim S800000x1 ![0] bcast_S800000_S800000x1_0 (val))))

/-- The reference's dense step on whole arrays: max (x · Wᵀ + b, 0). -/
def dense (x : (⟨S50000x128, .f32⟩ : BufTy).Contents (Elt F)) (W : (⟨S128x128, .f32⟩ : BufTy).Contents (Elt F)) (b : (⟨S128, .f32⟩ : BufTy).Contents (Elt F)) : (⟨S50000x128, .f32⟩ : BufTy).Contents (Elt F) :=
  maximumf (addf (Host.dotGeneral dot_S50000x128_S128x128_S50000x128_1_0_0_1_n_n none x (transpose S128x128 [1, 0] W transposes_S128x128_S128x128_1_0)) (broadcastInDim S50000x128 ![0, 1] bcast_S1x128_S50000x128_0_1 (broadcastInDim S1x128 ![1] bcast_S128_S1x128_1 b))) (broadcastInDim S50000x128 ![] bcast_S_S50000x128 (constant (F := F) S_ .f32 0x00000000#32))

/-- The term the reference's run ends at is two layers, each the dense step of the aggregated input. -/
theorem run_term (a0 a1 : (⟨S800000, .i32⟩ : BufTy).Contents (Elt F)) (a2 : (⟨S800000, .f32⟩ : BufTy).Contents (Elt F)) (a3 : (⟨S50000x128, .f32⟩ : BufTy).Contents (Elt F)) (a4 : (⟨S128x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) :
    maximumf (addf (Host.dotGeneral dot_S50000x128_S128x128_S50000x128_1_0_0_1_n_n none (Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 a1) (mulf (Host.gather gather_S50000x128_S800000x1_S800000x128_1_0_n_n_0_1_1128 (maximumf (addf (Host.dotGeneral dot_S50000x128_S128x128_S50000x128_1_0_0_1_n_n none (Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 a1) (mulf (Host.gather gather_S50000x128_S800000x1_S800000x128_1_0_n_n_0_1_1128 a3 (broadcastInDim S800000x1 ![0] bcast_S800000_S800000x1_0 (select (cmpi .slt a0 (broadcastInDim S800000 ![] bcast_S_S800000 (constantI S_ 32 0#32))) (addi a0 (broadcastInDim S800000 ![] bcast_S_S800000 (constantI S_ 32 50000#32))) a0))) (broadcastInDim S800000x128 ![0, 1] bcast_S800000x1_S800000x128_0_1 (broadcastInDim S800000x1 ![0] bcast_S800000_S800000x1_0 a2)))) (transpose S128x128 [1, 0] a4 transposes_S128x128_S128x128_1_0)) (broadcastInDim S50000x128 ![0, 1] bcast_S1x128_S50000x128_0_1 (broadcastInDim S1x128 ![1] bcast_S128_S1x128_1 a5))) (broadcastInDim S50000x128 ![] bcast_S_S50000x128 (constant (F := F) S_ .f32 0x00000000#32))) (broadcastInDim S800000x1 ![0] bcast_S800000_S800000x1_0 (select (cmpi .slt a0 (broadcastInDim S800000 ![] bcast_S_S800000 (constantI S_ 32 0#32))) (addi a0 (broadcastInDim S800000 ![] bcast_S_S800000 (constantI S_ 32 50000#32))) a0))) (broadcastInDim S800000x128 ![0, 1] bcast_S800000x1_S800000x128_0_1 (broadcastInDim S800000x1 ![0] bcast_S800000_S800000x1_0 a2)))) (transpose S128x128 [1, 0] a6 transposes_S128x128_S128x128_1_0)) (broadcastInDim S50000x128 ![0, 1] bcast_S1x128_S50000x128_0_1 (broadcastInDim S1x128 ![1] bcast_S128_S1x128_1 a7))) (broadcastInDim S50000x128 ![] bcast_S_S50000x128 (constant (F := F) S_ .f32 0x00000000#32))
      = dense (spmm a0 a1 a2 (dense (spmm a0 a1 a2 a3) a4 a5)) a6 a7 := rfl

end

/-- The aggregation is one host computation in both programs. -/
theorem spmm_eq (src dst : (⟨S800000, .i32⟩ : BufTy).Contents (Elt Ideal)) (val : (⟨S800000, .f32⟩ : BufTy).Contents (Elt Ideal)) (h : (⟨S50000x128, .f32⟩ : BufTy).Contents (Elt Ideal)) :
    Cert.KernelIdeal.Hand.spmm src dst val h = spmm (F := Ideal) src dst val h := rfl

/-- The reference's product contracts the input's columns with the transposed weight's rows and has no batch axes. -/
theorem dot_plain : PlainDot.IsPlain dot_S50000x128_S128x128_S50000x128_1_0_0_1_n_n := ⟨rfl, rfl, rfl, rfl, rfl, rfl⟩

/-- The reference's bias, broadcast over the rows, reads b q at (r, q). -/
theorem bias_apply (b : (⟨S128, .f32⟩ : BufTy).Contents (Elt Ideal)) (r : Fin 50000) (q : Fin 128) :
    broadcastInDim S50000x128 ![0, 1] bcast_S1x128_S50000x128_0_1 (broadcastInDim S1x128 ![1] bcast_S128_S1x128_1 b) (ix2 r q) = b (ix1 q) := by
  refine (broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The reference's zero array reads the zero word's value everywhere. -/
theorem zero_apply (i : S50000x128.Idx) :
    broadcastInDim S50000x128 ![] bcast_S_S50000x128 (constant (F := Ideal) S_ .f32 0x00000000#32) i = Ideal.ofBits .f32 0x00000000#32 :=
  (broadcastInDim_apply _ bcast_S_S50000x128 _ i ix0 (fun a => a.elim0)).trans rfl

/-- The dense layer the launch's row blocks leave, on the transposed weight and the bias as a row, is the reference's dense
    step. -/
theorem dense_eq (x : (⟨S50000x128, .f32⟩ : BufTy).Contents (Elt Ideal)) (W : (⟨S128x128, .f32⟩ : BufTy).Contents (Elt Ideal)) (b : (⟨S128, .f32⟩ : BufTy).Contents (Elt Ideal)) :
    Cert.KernelIdeal.Hand.denseArr x (Cert.KernelIdeal.Hand.wT W) (Cert.KernelIdeal.Hand.bRow b) = dense (F := Ideal) x W b := by
  funext i
  obtain ⟨r, q, rfl⟩ : ∃ (r : Fin 50000) (q : Fin 128), i = ix2 r q := ⟨i 0, i 1, eq_ix2 i⟩
  unfold Cert.KernelIdeal.Hand.denseArr Cert.KernelIdeal.Hand.denseAt dense
  refine Eq.trans ?_ (maximumf_apply _ _ _).symm
  refine congrArg₂ max ?_ (zero_apply (ix2 r q)).symm
  refine Eq.trans ?_ (addf_apply _ _ _).symm
  refine congrArg₂ (· + ·) ?_ ?_
  · exact (PlainDot.dotGeneral_plain dot_S50000x128_S128x128_S50000x128_1_0_0_1_n_n dot_plain none .single x
      (transpose S128x128 [1, 0] W transposes_S128x128_S128x128_1_0) r q).symm
  · refine Eq.trans ?_ (bias_apply b r q).symm
    exact shapeCast_a_1a_apply b Cert.KernelIdeal.Facts₀.shapeCasts_S128_S1x128 0 q

end Cert.ReferenceIdeal.Hand

end
-- ==== Proof.lean ====
/-
  A two-layer graph convolution, kernel against reference, over the extended reals.

  Each layer aggregates the node features over the edges (out[dst e] += val e * h[src e]) and then applies a dense step
  max (h · Wᵀ + b, 0). Both programs do the aggregation with the same host operations. The reference does the dense step as
  host operations on whole arrays; the kernel launches it over ten blocks of 5000 rows, casting its operands to a narrower
  float format before the product. Over the extended reals a change of float format is the identity and both products are the
  plain sum over the contracted coordinate, so every entry of a layer's output is the same sum in both programs; the second
  layer reads the first layer's output, which is the same array in both, so the results agree entry by entry.

  The three frames: the kernel's two (at the word level and over the extended reals) are the launch over @main's segments;
  the reference's is its run with the result dropped. No operation was rewritten for the idealized kernel, so there is
  nothing to preserve.
-/
import proofs.«110639_j81338090651948_1_alg».proof.Defs
import proofs.«110639_j81338090651948_1_alg».proof.Proof.Gen.Kernel
import proofs.«110639_j81338090651948_1_alg».proof.Proof.Gen.Kernel.Skeleton
import proofs.«110639_j81338090651948_1_alg».proof.Proof.Gen.Kernel.Launch
import proofs.«110639_j81338090651948_1_alg».proof.Proof.Gen.Kernel.Points
import proofs.«110639_j81338090651948_1_alg».proof.Proof.Gen.Kernel.Frame
import proofs.«110639_j81338090651948_1_alg».proof.Proof.Gen.KernelIdeal
import proofs.«110639_j81338090651948_1_alg».proof.Proof.Gen.KernelIdeal.Skeleton
import proofs.«110639_j81338090651948_1_alg».proof.Proof.Gen.KernelIdeal.Launch
import proofs.«110639_j81338090651948_1_alg».proof.Proof.Gen.KernelIdeal.Points
import proofs.«110639_j81338090651948_1_alg».proof.Proof.Gen.KernelIdeal.Frame
import proofs.«110639_j81338090651948_1_alg».proof.Proof.Gen.ReferenceIdeal
import proofs.«110639_j81338090651948_1_alg».proof.Proof.Gen.Pre_finite_inputs
import proofs.«110639_j81338090651948_1_alg».proof.Proof.Gen.ReferenceIdeal.Run
import proofs.«110639_j81338090651948_1_alg».proof.Proof.Gen.ReferenceIdeal.Read
import proofs.«110639_j81338090651948_1_alg».proof.Proof.KernelRun
import proofs.«110639_j81338090651948_1_alg».proof.Proof.HostChain
import proofs.«110639_j81338090651948_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the same two-layer term of the arguments: the kernel's launches leave the
    dense layer of what they find, block by block, and the reference's whole-array dense step is that same layer. -/
theorem algebraic : Cert.algebraic_KernelIdeal_ReferenceIdeal := by
  intro m ρ m' ρ' _ hagree
  refine ⟨fun c => Cert.KernelIdeal.Hand.result m c, ?_, ?_⟩
  · exact (θ_run Cert.KernelIdeal.defs _ _).mono
      (fun r h c => ⟨(h c).1.trans (Cert.KernelIdeal.Hand.v31_eq m ρ c), (h c).2⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    refine (Cert.ReferenceIdeal.Hand.run_term (F := Ideal) _ _ _ _ _ _ _ _).trans ?_
    show _ = Cert.KernelIdeal.Hand.result m c
    unfold Cert.KernelIdeal.Hand.result
    rw [Cert.ReferenceIdeal.Hand.dense_eq, Cert.ReferenceIdeal.Hand.spmm_eq, Cert.ReferenceIdeal.Hand.dense_eq,
      Cert.ReferenceIdeal.Hand.spmm_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
